-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S65536x256 .f32) (main_arg1 : FVec F S512x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S65536x256 : Shape := ⟨2, ![65536, 256]⟩
abbrev S512x256 : Shape := ⟨2, ![512, 256]⟩
abbrev S65536x512 : Shape := ⟨2, ![65536, 512]⟩
abbrev S512x65536 : Shape := ⟨2, ![512, 65536]⟩
abbrev S1024x256 : Shape := ⟨2, ![1024, 256]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x1024 : Shape := ⟨2, ![1, 1024]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S65536x512, .f32⟩
  | .hbm, ⟨3, _⟩ => ⟨S512x65536, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S1024x512, .f32⟩
  | .local _ .vmem, ⟨4, _⟩ => ⟨S1024x512, .f32⟩
  | .local _ .vmem, ⟨5, _⟩ => ⟨S512x1024, .f32⟩
  | .local _ .vmem, ⟨6, _⟩ => ⟨S512x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S1024x256_S1024 : S1024x256.Reduces [1] S1024
  shapeCasts_S1024_S1024x1 : S1024.ShapeCasts S1024x1
  reduces_S512x256_S512 : S512x256.Reduces [1] S512
  shapeCasts_S512_S512x1 : S512.ShapeCasts S512x1
  transposes_S1024x1_p1_0_S1x1024 : S1024x1.Transposes [1, 0] S1x1024
  transposes_S512x1_p1_0_S1x512 : S512x1.Transposes [1, 0] S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S1024x256_S512x256_S1024x512_1_1_0_0_n_n_wf : DotDims.WF S1024x256 S512x256 S1024x512 [1] [1] [0] [0] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x65536.size a
  hwx0_3 : ∀ i : grid0.Coords, EltTy.bits .f32 = 32 ∨ (Rect.block (s := S512x65536) S512x1024.size (cc0_transform_3 i) (hinb0_3 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S_ : Shape := ⟨0, ![]⟩
abbrev S65536 : Shape := ⟨1, ![65536]⟩
abbrev S512 : Shape := ⟨1, ![512]⟩
abbrev S256x512 : Shape := ⟨2, ![256, 512]⟩
abbrev S65536x512 : Shape := ⟨2, ![65536, 512]⟩
abbrev S65536x1 : Shape := ⟨2, ![65536, 1]⟩
abbrev S1x512 : Shape := ⟨2, ![1, 512]⟩
abbrev S512x1 : Shape := ⟨2, ![512, 1]⟩
abbrev S1x65536 : Shape := ⟨2, ![1, 65536]⟩
abbrev S512x65536 : Shape := ⟨2, ![512, 65536]⟩

abbrev nBuf : Space → Nat
  | .hbm => 29
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S512x256, .f32⟩
  | .hbm, ⟨6, _⟩ => ⟨S_, .f32⟩
  | .hbm, ⟨7, _⟩ => ⟨S512, .f32⟩
  | .hbm, ⟨8, _⟩ => ⟨S256x512, .f32⟩
  | .hbm, ⟨9, _⟩ => ⟨S65536x512, .f32⟩
  | .hbm, ⟨10, _⟩ => ⟨S65536x1, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S512x1, .f32⟩
  | .hbm, ⟨20, _⟩ => ⟨S1x65536, .f32⟩
  | .hbm, ⟨21, _⟩ => ⟨S512x65536, .f32⟩
  | .hbm, ⟨22, _⟩ => ⟨S512x65536, .f32⟩
  | .hbm, ⟨23, _⟩ => ⟨S512x65536, .f32⟩
  | .hbm, ⟨24, _⟩ => ⟨S512x65536, .f32⟩
  | .hbm, ⟨25, _⟩ => ⟨S_, .f32⟩
  | .hbm, ⟨26, _⟩ => ⟨S512x65536, .f32⟩
  | .hbm, ⟨27, _⟩ => ⟨S512x65536, .f32⟩
  | .hbm, ⟨28, _⟩ => ⟨S512x65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  reducesTo_S512x256_S512_d1 : S512x256.ReducesTo [1] S512
  transposes_S512x256_S256x512_1_0 : S512x256.Transposes [1, 0] S256x512
  bcast_S65536_S65536x1_0 : S65536.BroadcastsInDim S65536x1 (![0] : Fin 1 → Fin S65536x1.rank)
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S512_S512x1_0 : S512.BroadcastsInDim S512x1 (![0] : Fin 1 → Fin S512x1.rank)
  bcast_S65536_S1x65536_1 : S65536.BroadcastsInDim S1x65536 (![1] : Fin 1 → Fin S1x65536.rank)
  bcast_S512x1_S512x65536_0_1 : S512x1.BroadcastsInDim S512x65536 (![0, 1] : Fin 2 → Fin S512x65536.rank)
  bcast_S1x65536_S512x65536_0_1 : S1x65536.BroadcastsInDim S512x65536 (![0, 1] : Fin 2 → Fin S512x65536.rank)
  transposes_S65536x512_S512x65536_1_0 : S65536x512.Transposes [1, 0] S512x65536
  bcast_S_S512x65536 : S_.BroadcastsInDim S512x65536 (![] : Fin 0 → Fin S512x65536.rank)
  dot_S65536x256_S256x512_S65536x512_1_0_0_1_n_n_wf : DotDims.WF S65536x256 S256x512 S65536x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.LibColumn.lean ====
/-
  Column vectors read at an index, and a row sum as a finite sum.

  A row reduction kept as a column (`keepdims`) passes through three re-layings before it meets a matrix:
  the vector of row sums `[a]` is cast to the column `[a, 1]`, and the column is repeated along the second
  axis to `[a, b]`. Each is the operand read at the obvious coordinates: entry `(i, 0)` of the column is
  entry `i` of the vector, and entry `(p, c)` of the repeated column is entry `(p, 0)` of the column.
  Over the extended reals the sum of a matrix along its second axis, started from the zero word, is the
  finite sum of the row's entries.
-/
import Idealize.ShloMosaic.Lib.ValueLayout
import Idealize.ShloMosaic.PureOps.Ideal.Laws

namespace Cert.LibColumn

open Idealize.ShloMosaic Idealize.ShloMosaic.ValueIdx

variable {α : Type}

/-- A vector `[a]` cast to the column `[a, 1]` reads, at `(i, u)`, the vector at `i`: both positions
    are the `i`-th in row-major order, the unit coordinate contributing nothing. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the second axis to `[a, b]` reads, at `(p, c)`, the column's
    entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals, the sum of a matrix `[a, b]` along its second axis from the zero word is,
    at row `r`, the finite sum of that row's entries. -/
theorem rowSum_apply {a b : ℕ} (src : FVec Ideal ⟨2, ![a, b]⟩ .f32)
    (h : Shape.Reduces ⟨2, ![a, b]⟩ [1] ⟨1, ![a]⟩) (r : Fin a) :
    multiReduction .add [1] ⟨1, ![a]⟩ src 0x00000000#32 h (.inl rfl) rfl (ix1 r)
      = ∑ k : Fin b, src (ix2 r k) :=
  (Ideal.multiReduction_add_single src _ h _ _ (ix1 r)).trans
    (Finset.sum_congr rfl fun k _ => congrArg src (funext fun d => Fin.ext (by
      match d with
      | ⟨0, _⟩ => rfl
      | ⟨1, _⟩ => rfl)))

end Cert.LibColumn
-- ==== Proof.SqDist.lean ====
/-
  The squared Euclidean distance between the rows of two matrices, entry by entry, over the extended reals.

  For `x : [a, d]` and `y : [b, d]` the entry `(r, q)` of `sqDist x y : [a, b]` is
      (‖x_r‖² + ‖y_q‖²) − 2 · ⟨x_r, y_q⟩,
  with ‖x_r‖² the sum of the squares of row `r` and ⟨x_r, y_q⟩ the sum of the products of the two rows'
  entries, the factor `2` kept as the binary word both programs spell it with. The grouping is the one
  both programs compute in: the two squared norms are added first, and twice the inner product is
  subtracted from their sum. Exchanging the two matrices transposes the table: the only law used is that
  multiplication of extended reals is commutative, which holds at the infinities too.
-/
import Idealize.ShloMosaic.PureOps.Ideal
import Idealize.ShloMosaic.Lib.ValueIdx

noncomputable section

namespace Cert.SqDist

open Idealize.ShloMosaic Idealize.ShloMosaic.ValueIdx

/-- The squared norm of row `r` of a matrix: the sum of the squares of its entries. -/
def sqNorm {a d : ℕ} (x : (⟨2, ![a, d]⟩ : Shape).Idx → EReal) (r : Fin a) : EReal :=
  ∑ k : Fin d, x (ix2 r k) * x (ix2 r k)

/-- The inner product of row `r` of `x` with row `q` of `y`. -/
def dotRows {a b d : ℕ} (x : (⟨2, ![a, d]⟩ : Shape).Idx → EReal) (y : (⟨2, ![b, d]⟩ : Shape).Idx → EReal)
    (r : Fin a) (q : Fin b) : EReal :=
  ∑ k : Fin d, x (ix2 r k) * y (ix2 q k)

/-- The factor of the inner product: the single-precision word of `2.0`, read over the extended reals. -/
def two : EReal := Ideal.ofBits .f32 0x40000000#32

/-- The table of squared distances between the rows of `x` and the rows of `y`, at coordinates. -/
def sqDistAt {a b d : ℕ} (x : (⟨2, ![a, d]⟩ : Shape).Idx → EReal) (y : (⟨2, ![b, d]⟩ : Shape).Idx → EReal)
    (r : Fin a) (q : Fin b) : EReal :=
  (sqNorm x r + sqNorm y q) - two * dotRows x y r q

/-- The table as an array. -/
def sqDist {a b d : ℕ} (x : (⟨2, ![a, d]⟩ : Shape).Idx → EReal) (y : (⟨2, ![b, d]⟩ : Shape).Idx → EReal) :
    (⟨2, ![a, b]⟩ : Shape).Idx → EReal :=
  fun i => sqDistAt x y (i 0) (i 1)

theorem sqDist_ix2 {a b d : ℕ} (x : (⟨2, ![a, d]⟩ : Shape).Idx → EReal) (y : (⟨2, ![b, d]⟩ : Shape).Idx → EReal)
    (r : Fin a) (q : Fin b) : sqDist x y (ix2 r q) = sqDistAt x y r q := rfl

/-- The inner product does not depend on which row is named first. -/
theorem dotRows_comm {a b d : ℕ} (x : (⟨2, ![a, d]⟩ : Shape).Idx → EReal) (y : (⟨2, ![b, d]⟩ : Shape).Idx → EReal)
    (r : Fin a) (q : Fin b) : dotRows x y r q = dotRows y x q r :=
  Finset.sum_congr rfl fun _ _ => mul_comm _ _

end Cert.SqDist

end
-- ==== Proof.KernelBody.lean ====
/-
  What the kernel body stores, entry by entry, over the extended reals.

  One grid step loads a block `x0` of 1024 feature rows and the whole table `x1` of 512 prototype rows
  (256 columns each) and stores two tiles. The first, `[1024, 512]`, holds at `(r, q)` the squared
  distance between feature row `r` and prototype row `q`: the column of the features' squared norms and
  the row of the prototypes' squared norms are added, and twice the matrix product of the two blocks
  (contracted along the 256 columns, no rounding and no change of format over the extended reals) is
  subtracted. The second, `[512, 1024]`, is the same table with the two blocks exchanged.
-/
import proofs.«121160_j24790551232582_1_alg».proof.Proof.Gen.KernelIdeal.Skeleton
import proofs.«121160_j24790551232582_1_alg».proof.Proof.LibColumn
import proofs.«121160_j24790551232582_1_alg».proof.Proof.SqDist
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.LibColumn Cert.SqDist

/-! ## The two matrix products: which operand entries meet at a contraction index -/

theorem lhs_cross_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem lhs_cross_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
theorem rhs_cross_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem rhs_cross_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

theorem lhs_crossT_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_crossT_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem rhs_crossT_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_crossT_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The product of an `[1024, 256]` block with the transpose of a `[512, 256]` block, into a zero accumulator:
    entry `(r, q)` is the inner product of row `r` of the first with row `q` of the second (both operands
    are contracted along their second axis). -/
theorem cross_apply (x : FVec Ideal S1024x256 .bf16) (y : FVec Ideal S512x256 .bf16) (r : Fin 1024) (q : Fin 512) :
    matmul dot_S1024x256_S512x256_S1024x512_1_1_0_0_n_n none x y (constant S1024x512 .f32 0x00000000#32) (ix2 r q) = dotRows x y r q := by
  simp only [matmul]
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 r q) ((contrEquiv1 dot_S1024x256_S512x256_S1024x512_1_1_0_0_n_n 256 rfl rfl).symm k) = ix2 r k := funext fun a => Fin.ext (by
    match a with
    | ⟨0, _⟩ => exact lhs_cross_0 _ _
    | ⟨1, _⟩ => exact (lhs_cross_1 _ _).trans hk)
  have er : dot_S1024x256_S512x256_S1024x512_1_1_0_0_n_n.rhsIdx (ix2 r q) ((contrEquiv1 dot_S1024x256_S512x256_S1024x512_1_1_0_0_n_n 256 rfl rfl).symm k) = ix2 q k := funext fun a => Fin.ext (by
    match a with
    | ⟨0, _⟩ => exact rhs_cross_0 _ _
    | ⟨1, _⟩ => exact (rhs_cross_1 _ _).trans hk)
  rw [el, er]

/-- The product of an `[512, 256]` block with the transpose of a `[1024, 256]` block, into a zero accumulator:
    entry `(r, q)` is the inner product of row `r` of the first with row `q` of the second (both operands
    are contracted along their second axis). -/
theorem crossT_apply (x : FVec Ideal S512x256 .bf16) (y : FVec Ideal S1024x256 .bf16) (r : Fin 512) (q : Fin 1024) :
    matmul dot_S512x256_S1024x256_S512x1024_1_1_0_0_n_n none x y (constant S512x1024 .f32 0x00000000#32) (ix2 r q) = dotRows x y r q := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 r q) ((contrEquiv1 dot_S512x256_S1024x256_S512x1024_1_1_0_0_n_n 256 rfl rfl).symm k) = ix2 r k := funext fun a => Fin.ext (by
    match a with
    | ⟨0, _⟩ => exact lhs_crossT_0 _ _
    | ⟨1, _⟩ => exact (lhs_crossT_1 _ _).trans hk)
  have er : dot_S512x256_S1024x256_S512x1024_1_1_0_0_n_n.rhsIdx (ix2 r q) ((contrEquiv1 dot_S512x256_S1024x256_S512x1024_1_1_0_0_n_n 256 rfl rfl).symm k) = ix2 q k := funext fun a => Fin.ext (by
    match a with
    | ⟨0, _⟩ => exact rhs_crossT_0 _ _
    | ⟨1, _⟩ => exact (rhs_crossT_1 _ _).trans hk)
  rw [el, er]

/-! ## The squared norms, kept as columns -/

/-- The column of the feature block's squared norms: entry `(r, 0)` is the sum of the squares of row `r`. -/
theorem featSq_apply (x0 : Vec Ideal S1024x256 .f32) (r : Fin 1024) (u : Fin 1) :
    k0_pay3 x0 (ix2 r u) = sqNorm x0 r := by
  unfold k0_pay3
  refine (shapeCast_a_a1_apply _ shapeCasts_S1024_S1024x1 r u).trans ?_
  exact rowSum_apply (mulf x0 x0) reduces_S1024x256_S1024 r

/-- The column of the prototypes' squared norms. -/
theorem protoSq_apply (x1 : Vec Ideal S512x256 .f32) (q : Fin 512) (u : Fin 1) :
    k0_pay4 x1 (ix2 q u) = sqNorm x1 q := by
  unfold k0_pay4
  refine (shapeCast_a_a1_apply _ shapeCasts_S512_S512x1 q u).trans ?_
  exact rowSum_apply (mulf x1 x1) reduces_S512x256_S512 q

/-! ## The two stored tiles -/

/-- The first tile at `(r, q)`: the squared distance between feature row `r` and prototype row `q`. -/
theorem tileNP_apply (x0 : Vec Ideal S1024x256 .f32) (x1 : Vec Ideal S512x256 .f32) (r : Fin 1024) (q : Fin 512) :
    k0_pay5 x0 x1 (ix2 r q) = sqDistAt x0 x1 r q := by
  unfold k0_pay5
  simp only [subf_apply, addf_apply, mulf_apply, broadcast_apply]
  rw [broadcastTo_a1_ab_apply, broadcastTo_1b_ab_apply, transpose_ix2_apply, featSq_apply, protoSq_apply, cross_apply]
  rfl

/-- The second tile at `(q, r)`: the squared distance between prototype row `q` and feature row `r`. -/
theorem tilePN_apply (x0 : Vec Ideal S1024x256 .f32) (x1 : Vec Ideal S512x256 .f32) (q : Fin 512) (r : Fin 1024) :
    k0_pay6 x0 x1 (ix2 q r) = sqDistAt x1 x0 q r := by
  unfold k0_pay6
  simp only [subf_apply, addf_apply, mulf_apply, broadcast_apply]
  rw [broadcastTo_a1_ab_apply, broadcastTo_1b_ab_apply, transpose_ix2_apply, featSq_apply, protoSq_apply, crossT_apply]
  rfl

end Cert.KernelIdeal.Body

end
-- ==== Proof.KernelArray.lean ====
/-
  From the tiles each grid step stores to the two whole result arrays.

  Step `t` of the 64 reads feature rows `1024·t … 1024·t + 1023` and the whole prototype table. Its first
  tile is written back as rows `1024·t …` of the `[65536, 512]` result and its second as columns
  `1024·t …` of the `[512, 65536]` result. A tile's entry is the squared distance between one feature row
  of the block and one prototype row, and a row of the block IS the corresponding row of the whole
  feature matrix; so each tile is the restriction of ONE table over the whole matrices to its rows (its
  columns), and since the 64 tiles cover every row (every column) the arrays end holding those tables.
-/
import proofs.«121160_j24790551232582_1_alg».proof.Proof.Gen.KernelIdeal.Value
import proofs.«121160_j24790551232582_1_alg».proof.Proof.KernelBody

noncomputable section

namespace Cert.KernelIdeal.Whole

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)
open Cert.SqDist

variable (m : (ℓ : Loc nD τ sig) → Buf (Elt Ideal) ℓ) (ρ : Dev nD → PrngReg)

theorem origin : (![0, 0] : Fin 2 → Nat) = fun _ => 0 := funext fun a => by fin_cases a <;> rfl

/-- The four index maps over the grid: the feature window and both result windows move together along
    one axis, every other block index is zero, and there are 64 positions. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 63
    ∧ win0_3.index t (0 : Fin 2) = 0 ∧ win0_3.index t (1 : Fin 2) = win0_2.index t (0 : Fin 2) :=
  (by decide +kernel : ∀ t : Fin grid0.N, _)

/-- Each of the 64 positions is some step's. -/
theorem index_onto : ∀ b : Fin 64, ∃ t : Fin cfg0.N, win0_2.index t (0 : Fin 2) = b.val :=
  (by decide +kernel : ∀ b : Fin 64, ∃ t : Fin grid0.N, win0_2.index t (0 : Fin 2) = b.val)

/-! ## A block's rows are the matrix's rows -/

/-- Row `r` of the feature block at step `t` is row `1024·(block index) + r` of the feature matrix. -/
theorem featBlock_read (c : Dev nD) (t : Fin cfg0.N) (r : Fin 1024) (k : Fin 256) (n : Fin 65536)
    (hn : n.val = win0_2.index t (0 : Fin 2) * 1024 + r.val) :
    iblk m c 0 t (ix2 r k) = V m c main_arg0 (ix2 n k) := by
  obtain ⟨e0, e1, -⟩ := index_maps t
  show V m c main_arg0 (((cfg0.win 0).blk t).view.emb (ix2 r k)) = V m c main_arg0 (ix2 n k)
  refine congrArg _ (funext fun a => Fin.ext ?_)
  match a with
  | ⟨0, _⟩ => show win0_0.index t (0 : Fin 2) * 1024 + 1 * r.val = n.val; omega
  | ⟨1, _⟩ => show win0_0.index t (1 : Fin 2) * 256 + 1 * k.val = k.val; omega

/-- The prototype block at every step is the whole prototype table. -/
theorem protoBlock_read (c : Dev nD) (t : Fin cfg0.N) (q : Fin 512) (k : Fin 256) :
    iblk m c 1 t (ix2 q k) = V m c main_arg1 (ix2 q k) := by
  obtain ⟨-, -, e2, e3, -⟩ := index_maps t
  show V m c main_arg1 (((cfg0.win 1).blk t).view.emb (ix2 q k)) = V m c main_arg1 (ix2 q k)
  refine congrArg _ (funext fun a => Fin.ext ?_)
  match a with
  | ⟨0, _⟩ => show win0_1.index t (0 : Fin 2) * 512 + 1 * q.val = q.val; omega
  | ⟨1, _⟩ => show win0_1.index t (1 : Fin 2) * 256 + 1 * k.val = k.val; omega

/-- So the squared distance between a block row and a prototype row is that of the matrix row. -/
theorem sqDistAt_block (c : Dev nD) (t : Fin cfg0.N) (r : Fin 1024) (q : Fin 512) (n : Fin 65536)
    (hn : n.val = win0_2.index t (0 : Fin 2) * 1024 + r.val) :
    sqDistAt (iblk m c 0 t) (iblk m c 1 t) r q = sqDistAt (V m c main_arg0) (V m c main_arg1) n q := by
  unfold sqDistAt sqNorm dotRows
  simp only [featBlock_read m c t r _ n hn, protoBlock_read m c t q]

/-- The same with the prototype named first. -/
theorem sqDistAt_block' (c : Dev nD) (t : Fin cfg0.N) (r : Fin 1024) (q : Fin 512) (n : Fin 65536)
    (hn : n.val = win0_2.index t (0 : Fin 2) * 1024 + r.val) :
    sqDistAt (iblk m c 1 t) (iblk m c 0 t) q r = sqDistAt (V m c main_arg1) (V m c main_arg0) q n := by
  unfold sqDistAt sqNorm dotRows
  simp only [featBlock_read m c t r _ n hn, protoBlock_read m c t q]

/-! ## Each step writes back its rows (its columns) of one table -/

/-- What step `t` writes back to the first result is block `t` of the table of squared distances from
    the feature matrix's rows to the prototypes. -/
theorem flushedNP_eq (c : Dev nD) (t : Fin cfg0.N) :
    (dats m 0 c).flushed 2 t
      = ((cfg0.win 2).blk t).view.read (Elt Ideal) (sqDist (V m c main_arg0) (V m c main_arg1)) := by
  rw [flushed2]
  unfold out0_2
  rw [View.canon_unit_zero origin]
  simp only [View.ld_unit_zero (S := S1024x256) origin, View.ld_unit_zero (S := S512x256) origin]
  obtain ⟨-, -, -, -, e4, e5, -, -⟩ := index_maps t
  funext j
  obtain ⟨r, q, rfl⟩ : ∃ (r : Fin 1024) (q : Fin 512), j = ix2 r q := ⟨j 0, j 1, eq_ix2 j⟩
  show k0_pay5 (iblk m c 0 t) (iblk m c 1 t) (ix2 r q)
    = sqDist (V m c main_arg0) (V m c main_arg1) (((cfg0.win 2).blk t).view.emb (ix2 r q))
  refine (tileNP_apply (iblk m c 0 t) (iblk m c 1 t) r q).trans ?_
  have h0 : ((((cfg0.win 2).blk t).view.emb (ix2 r q)) 0).val = win0_2.index t (0 : Fin 2) * 1024 + r.val := by
    show win0_2.index t (0 : Fin 2) * 1024 + 1 * r.val = _; omega
  have h1 : (((cfg0.win 2).blk t).view.emb (ix2 r q)) 1 = q := Fin.ext (by
    show win0_2.index t (1 : Fin 2) * 512 + 1 * q.val = q.val; omega)
  show _ = sqDistAt (V m c main_arg0) (V m c main_arg1) ((((cfg0.win 2).blk t).view.emb (ix2 r q)) 0)
    ((((cfg0.win 2).blk t).view.emb (ix2 r q)) 1)
  rw [h1]
  exact sqDistAt_block m c t r q _ h0

/-- What step `t` writes back to the second result is block `t` of the table of squared distances from
    the prototypes to the feature matrix's rows. -/
theorem flushedPN_eq (c : Dev nD) (t : Fin cfg0.N) :
    (dats m 0 c).flushed 3 t
      = ((cfg0.win 3).blk t).view.read (Elt Ideal) (sqDist (V m c main_arg1) (V m c main_arg0)) := by
  rw [flushed3]
  unfold out0_3
  rw [View.canon_unit_zero origin]
  simp only [View.ld_unit_zero (S := S1024x256) origin, View.ld_unit_zero (S := S512x256) origin]
  obtain ⟨-, -, -, -, -, e5, e6, e7⟩ := index_maps t
  funext j
  obtain ⟨q, r, rfl⟩ : ∃ (q : Fin 512) (r : Fin 1024), j = ix2 q r := ⟨j 0, j 1, eq_ix2 j⟩
  show k0_pay6 (iblk m c 0 t) (iblk m c 1 t) (ix2 q r)
    = sqDist (V m c main_arg1) (V m c main_arg0) (((cfg0.win 3).blk t).view.emb (ix2 q r))
  refine (tilePN_apply (iblk m c 0 t) (iblk m c 1 t) q r).trans ?_
  have h0 : (((cfg0.win 3).blk t).view.emb (ix2 q r)) 0 = q := Fin.ext (by
    show win0_3.index t (0 : Fin 2) * 512 + 1 * q.val = q.val; omega)
  have h1 : ((((cfg0.win 3).blk t).view.emb (ix2 q r)) 1).val = win0_2.index t (0 : Fin 2) * 1024 + r.val := by
    show win0_3.index t (1 : Fin 2) * 1024 + 1 * r.val = _; omega
  show _ = sqDistAt (V m c main_arg1) (V m c main_arg0) ((((cfg0.win 3).blk t).view.emb (ix2 q r)) 0)
    ((((cfg0.win 3).blk t).view.emb (ix2 q r)) 1)
  rw [h0]
  exact sqDistAt_block' m c t r q _ h1

/-! ## The tiles cover the arrays -/

/-- An index of the first result is in step `t`'s block iff each coordinate is in the block's range. -/
theorem mem_blockNP (t : Fin cfg0.N) (i : S65536x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl

/-- An index of the second result is in step `t`'s block iff each coordinate is in the block's range. -/
theorem mem_blockPN (t : Fin cfg0.N) (i : S512x65536.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_1).slice (win0_3.rect t)).set ↔ _
  rw [View.set_slice_whole, Rect.mem_set_unit]
  exact Iff.rfl

/-- Row `n` of the first result lies in the block of the step at position `n / 1024`. -/
theorem coverNP (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := index_onto ⟨(i 0).val / 1024, by omega⟩
  have ht' : win0_2.index t (0 : Fin 2) = (i 0).val / 1024 := ht
  obtain ⟨-, -, -, -, e4, -, -, -⟩ := index_maps t
  refine ⟨t, flush0_2 t, ?_⟩
  rw [mem_blockNP]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- Column `n` of the second result lies in the block of the step at position `n / 1024`. -/
theorem coverPN (i : S512x65536.Idx) :
    ∃ t : Fin cfg0.N, (cfg0.win 3).flush t = true ∧ i ∈ ((cfg0.win 3).blk t).view.set := by
  have hi0 : (i 0).val < 512 := (i 0).isLt
  have hi1 : (i 1).val < 65536 := (i 1).isLt
  obtain ⟨t, ht⟩ := index_onto ⟨(i 1).val / 1024, by omega⟩
  have ht' : win0_2.index t (0 : Fin 2) = (i 1).val / 1024 := ht
  obtain ⟨-, -, -, -, -, -, e6, e7⟩ := index_maps t
  refine ⟨t, flush0_3 t, ?_⟩
  rw [mem_blockPN]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The arrays after the run -/

/-- The first result ends holding the squared distances from the features to the prototypes. -/
theorem finalNP (c : Dev nD) :
    (dats m 0 c).arrAt 2 cfg0.N = sqDist (m ((c : Thread nD τ).loc main_arg0)) (m ((c : Thread nD τ).loc main_arg1)) :=
  (dats m 0 c).arrAt_eq_of_cover 2 (sqDist (V m c main_arg0) (V m c main_arg1)) (fun t _ => flushedNP_eq m c t) coverNP

/-- The second result ends holding the squared distances from the prototypes to the features. -/
theorem finalPN (c : Dev nD) :
    (dats m 0 c).arrAt 3 cfg0.N = sqDist (m ((c : Thread nD τ).loc main_arg1)) (m ((c : Thread nD τ).loc main_arg0)) :=
  (dats m 0 c).arrAt_eq_of_cover 3 (sqDist (V m c main_arg1) (V m c main_arg0)) (fun t _ => flushedPN_eq m c t) coverPN

/-- Every weakly fair execution of the kernel program ends with the two results at those tables of the
    argument arrays, and the arguments unchanged. -/
theorem run : θ_run defs (onTc (τ := τ) (main (F := Ideal))) ⟨m, fun _ => 0, ρ⟩ fun r => ∀ c : Dev nD,
      r.2.mem ((c : Thread nD τ).loc main_v0_0) = sqDist (m ((c : Thread nD τ).loc main_arg0)) (m ((c : Thread nD τ).loc main_arg1))
      ∧ r.2.mem ((c : Thread nD τ).loc main_v0_1) = sqDist (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalNP m c), (h c).2.1.trans (finalPN m c), (h c).2.2.1, (h c).2.2.2⟩)
    (run_blocks m ρ)

end Cert.KernelIdeal.Whole

end
-- ==== Proof.RefValue.lean ====
/-
  The reference's two results, entry by entry, over the extended reals.

  The reference squares and sums each matrix along its 256 columns (the host sum starts from the zero
  word, which is the real 0), multiplies the features by the transposed prototypes, and combines: entry
  `(n, p)` of the first result is (‖f_n‖² + ‖p_p‖²) − 2·⟨f_n, p_p⟩. Its second result is built from the
  SAME product read transposed, so entry `(p, n)` is (‖p_p‖² + ‖f_n‖²) − 2·⟨f_n, p_p⟩; as a table of
  squared distances from the prototypes to the features it names the prototype row first, and the two
  spellings of the inner product agree because multiplication of extended reals is commutative.
-/
import proofs.«121160_j24790551232582_1_alg».proof.Proof.Gen.ReferenceIdeal.Read
import proofs.«121160_j24790551232582_1_alg».proof.Proof.SqDist
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SqDist

/-! ## Where each stage reads its operand -/

theorem idx_feat (n : Fin 65536) (k : Fin 256) : idx_main_v1 (ix1 n) k = ix2 n k := funext fun a => Fin.ext (by match a with | ⟨0, _⟩ => rfl | ⟨1, _⟩ => rfl)
theorem idx_proto (p : Fin 512) (k : Fin 256) : idx_main_v3 (ix1 p) k = ix2 p k := funext fun a => Fin.ext (by match a with | ⟨0, _⟩ => rfl | ⟨1, _⟩ => rfl)
theorem idx_lhs (n : Fin 65536) (p : Fin 512) (k : Fin 256) : lidx_main_v5 (ix2 n p) k = ix2 n k := funext fun a => Fin.ext (by match a with | ⟨0, _⟩ => rfl | ⟨1, _⟩ => rfl)
theorem idx_rhs (n : Fin 65536) (p : Fin 512) (k : Fin 256) : idx_main_v4 (ridx_main_v5 (ix2 n p) k) = ix2 p k := funext fun a => Fin.ext (by match a with | ⟨0, _⟩ => rfl | ⟨1, _⟩ => rfl)
theorem idx_featCol (n : Fin 65536) (p : Fin 512) : idx_main_v6 (idx_main_v8 (ix2 n p)) = ix1 n := funext fun a => Fin.ext (by match a with | ⟨0, _⟩ => rfl)
theorem idx_protoRow (n : Fin 65536) (p : Fin 512) : idx_main_v7 (idx_main_v9 (ix2 n p)) = ix1 p := funext fun a => Fin.ext (by match a with | ⟨0, _⟩ => rfl)
theorem idx_protoCol (p : Fin 512) (n : Fin 65536) : idx_main_v14 (idx_main_v16 (ix2 p n)) = ix1 p := funext fun a => Fin.ext (by match a with | ⟨0, _⟩ => rfl)
theorem idx_featRow (p : Fin 512) (n : Fin 65536) : idx_main_v15 (idx_main_v17 (ix2 p n)) = ix1 n := funext fun a => Fin.ext (by match a with | ⟨0, _⟩ => rfl)
theorem idx_swap (p : Fin 512) (n : Fin 65536) : idx_main_v19 (ix2 p n) = ix2 n p := funext fun a => Fin.ext (by match a with | ⟨0, _⟩ => rfl | ⟨1, _⟩ => rfl)

/-! ## The three ingredients -/

/-- The features' squared norms: the host sum of the squares of row `n`, from zero. -/
theorem featSq_ref (x0 : (⟨S65536x256, .f32⟩ : BufTy).Contents (Elt Ideal)) (n : Fin 65536) :
    val_main_v1 (F := Ideal) x0 (ix1 n) = sqNorm x0 n := by
  rw [val_main_v1_apply]
  show Ideal.ofBits .f32 0x00000000#32 + ∑ k : Fin 256, x0 (idx_main_v1 (ix1 n) k) * x0 (idx_main_v1 (ix1 n) k) = _
  rw [Ideal.ofBits_zero_f32, zero_add]
  exact Finset.sum_congr rfl fun k _ => by rw [idx_feat]

/-- The prototypes' squared norms. -/
theorem protoSq_ref (x1 : (⟨S512x256, .f32⟩ : BufTy).Contents (Elt Ideal)) (p : Fin 512) :
    val_main_v3 (F := Ideal) x1 (ix1 p) = sqNorm x1 p := by
  rw [val_main_v3_apply]
  show Ideal.ofBits .f32 0x00000000#32 + ∑ k : Fin 256, x1 (idx_main_v3 (ix1 p) k) * x1 (idx_main_v3 (ix1 p) k) = _
  rw [Ideal.ofBits_zero_f32, zero_add]
  exact Finset.sum_congr rfl fun k _ => by rw [idx_proto]

/-- The product of the features with the transposed prototypes: entry `(n, p)` is the inner product of
    feature row `n` with prototype row `p`. -/
theorem cross_ref (x0 : (⟨S65536x256, .f32⟩ : BufTy).Contents (Elt Ideal)) (x1 : (⟨S512x256, .f32⟩ : BufTy).Contents (Elt Ideal))
    (n : Fin 65536) (p : Fin 512) : val_main_v5 (F := Ideal) x0 x1 (ix2 n p) = dotRows x0 x1 n p := by
  rw [val_main_v5_apply]
  unfold dotRows
  refine Finset.sum_congr rfl fun k _ => ?_
  rw [val_main_v4_apply, idx_lhs, idx_rhs]

/-! ## The two results -/

/-- The first result is the table of squared distances from the features to the prototypes. -/
theorem distNP_ref (x0 : (⟨S65536x256, .f32⟩ : BufTy).Contents (Elt Ideal)) (x1 : (⟨S512x256, .f32⟩ : BufTy).Contents (Elt Ideal)) :
    val_main_v13 (F := Ideal) x0 x1 = sqDist x0 x1 := by
  funext i
  obtain ⟨n, p, rfl⟩ : ∃ (n : Fin 65536) (p : Fin 512), i = ix2 n p := ⟨i 0, i 1, eq_ix2 i⟩
  rw [sqDist_ix2, val_main_v13_apply, val_main_v10_apply, val_main_v12_apply, val_main_v8_apply, val_main_v6_apply,
    val_main_v9_apply, val_main_v7_apply, val_main_v11_apply, val_main_cst_1_apply, cross_ref, idx_featCol, idx_protoRow,
    featSq_ref, protoSq_ref]
  rfl

/-- The second result is the table of squared distances from the prototypes to the features: the
    reference reads its one product transposed, which names the feature row first. -/
theorem distPN_ref (x0 : (⟨S65536x256, .f32⟩ : BufTy).Contents (Elt Ideal)) (x1 : (⟨S512x256, .f32⟩ : BufTy).Contents (Elt Ideal)) :
    val_main_v22 (F := Ideal) x0 x1 = sqDist x1 x0 := by
  funext i
  obtain ⟨p, n, rfl⟩ : ∃ (p : Fin 512) (n : Fin 65536), i = ix2 p n := ⟨i 0, i 1, eq_ix2 i⟩
  rw [sqDist_ix2, val_main_v22_apply, val_main_v18_apply, val_main_v21_apply, val_main_v16_apply, val_main_v14_apply,
    val_main_v17_apply, val_main_v15_apply, val_main_v20_apply, val_main_cst_2_apply, val_main_v19_apply, idx_swap, cross_ref,
    idx_protoCol, idx_featRow, featSq_ref, protoSq_ref]
  unfold sqDistAt
  rw [dotRows_comm x1 x0 p n]
  rfl

end Cert.ReferenceIdeal.RefValue

end
-- ==== Proof.lean ====
/-
  The certificate of the pairwise squared-distance kernel against its reference.

  Both programs compute, for feature rows f_n (n < 65536) and prototype rows p_q (q < 512) of 256
  entries each, the two tables
      D[n, q]  = (‖f_n‖² + ‖p_q‖²) − 2·⟨f_n, p_q⟩        and        D'[q, n] = (‖p_q‖² + ‖f_n‖²) − 2·⟨p_q, f_n⟩,
  over the extended reals. The kernel does it tile by tile, 1024 feature rows per grid step, with two
  matrix products per step (one for each orientation); the reference with one product over the whole
  matrices, read a second time transposed. Over the extended reals a change of float format is the
  identity, a matrix product into a zero accumulator and a row sum from zero are finite sums, and the
  only law that separates the two programs is the commutativity of multiplication inside the inner
  product of the second table, which holds for every extended real; so the inputs' finiteness is never
  used. The three frames are the generated ones (the reference's is its generated run with the results
  dropped); the ideal pass rewrote nothing, so `preserves` is `True`.
-/
import proofs.«121160_j24790551232582_1_alg».proof.Defs
import proofs.«121160_j24790551232582_1_alg».proof.Proof.Gen.Kernel
import proofs.«121160_j24790551232582_1_alg».proof.Proof.Gen.Kernel.Skeleton
import proofs.«121160_j24790551232582_1_alg».proof.Proof.Gen.Kernel.Launch
import proofs.«121160_j24790551232582_1_alg».proof.Proof.Gen.Kernel.Points
import proofs.«121160_j24790551232582_1_alg».proof.Proof.Gen.Kernel.Frame
import proofs.«121160_j24790551232582_1_alg».proof.Proof.Gen.KernelIdeal
import proofs.«121160_j24790551232582_1_alg».proof.Proof.Gen.KernelIdeal.Skeleton
import proofs.«121160_j24790551232582_1_alg».proof.Proof.Gen.KernelIdeal.Launch
import proofs.«121160_j24790551232582_1_alg».proof.Proof.Gen.KernelIdeal.Points
import proofs.«121160_j24790551232582_1_alg».proof.Proof.Gen.KernelIdeal.Frame
import proofs.«121160_j24790551232582_1_alg».proof.Proof.Gen.ReferenceIdeal
import proofs.«121160_j24790551232582_1_alg».proof.Proof.Gen.Pre_finite_inputs
import proofs.«121160_j24790551232582_1_alg».proof.Proof.Gen.KernelIdeal.Value
import proofs.«121160_j24790551232582_1_alg».proof.Proof.Gen.ReferenceIdeal.Run
import proofs.«121160_j24790551232582_1_alg».proof.Proof.Gen.ReferenceIdeal.Read
import proofs.«121160_j24790551232582_1_alg».proof.Proof.KernelArray
import proofs.«121160_j24790551232582_1_alg».proof.Proof.RefValue
import Idealize.ShloMosaic.Adequacy
import Idealize.ShloMosaic.Init

noncomputable section

namespace Cert.Proof

open Idealize.ShloMosaic Idealize.ShloMosaic.TcCoe Idealize.SL.Sem
open Cert.SqDist

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the table of squared distances from the features to the prototypes in the
    first result and the table from the prototypes to the features in the second, of argument arrays
    that agree. -/
theorem algebraic : Cert.algebraic_KernelIdeal_ReferenceIdeal := by
  intro m ρ m' ρ' _ hagree
  refine ⟨fun c => sqDist (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => sqDist (m ((c : Thread Cert.KernelIdeal.nD Cert.KernelIdeal.τ).loc Cert.KernelIdeal.main_arg1))
      (m ((c : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v13_eq, Cert.ReferenceIdeal.RefValue.distNP_ref, (hagree c).1, (hagree c).2]
  · rw [(h c).2.1, Cert.ReferenceIdeal.Read.val_main_v22_eq, Cert.ReferenceIdeal.RefValue.distPN_ref, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
